-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64 : Shape := ⟨3, ![8, 64, 64]⟩
abbrev S_ : Shape := ⟨0, ![]⟩

class Facts : Prop where
  bcast_S_S8x64x64 : S_.BroadcastsInDim S8x64x64 (![] : Fin 0 → Fin S8x64x64.rank)
  reducesTo_S8x64x64_S_d0_1_2 : S8x64x64.ReducesTo [0, 1, 2] S_
  h_S_ : 0 < S_.numel

variable [Facts]

def fn {F : FTy → Type} [FloatOps F] (main_arg0 : FVec F S8x64x64 .f32) (main_arg1 : FVec F S8x64x64 .f32) : IVec S_ 1 :=
  let main_v0 : FVec F S8x64x64 .f32 := Host.absf main_arg0
  let main_cst : FVec F S_ .f32 := constant S_ .f32 0x7F800000#32
  let main_v1 : FVec F S8x64x64 .f32 := broadcastInDim S8x64x64 ![] bcast_S_S8x64x64 main_cst
  let main_v2 : IVec S8x64x64 1 := cmpf .olt main_v0 main_v1
  let main_c : IVec S_ 1 := constantI S_ 1 1#1
  let main_v3 : IVec S_ 1 := (fun x v => Host.reduce IntOp.andi x v reducesTo_S8x64x64_S_d0_1_2 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  main_v8
-- ==== Kernel.lean ====
abbrev S8x64x64 : Shape := ⟨3, ![8, 64, 64]⟩
abbrev S8x4096x4096 : Shape := ⟨3, ![8, 4096, 4096]⟩
abbrev S1x8x64 : Shape := ⟨3, ![1, 8, 64]⟩
abbrev S1x64x64 : Shape := ⟨3, ![1, 64, 64]⟩
abbrev S1x512x4096 : Shape := ⟨3, ![1, 512, 4096]⟩
abbrev S8x64 : Shape := ⟨2, ![8, 64]⟩
abbrev S64x64 : Shape := ⟨2, ![64, 64]⟩
abbrev S8x1x64x1 : Shape := ⟨4, ![8, 1, 64, 1]⟩
abbrev S1x64x1x64 : Shape := ⟨4, ![1, 64, 1, 64]⟩
abbrev S8x64x64x64 : Shape := ⟨4, ![8, 64, 64, 64]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x4096x4096, .f32⟩
  | .local _ .vmem, ⟨0, _⟩ => ⟨S1x8x64, .f32⟩
  | .local _ .vmem, ⟨1, _⟩ => ⟨S1x8x64, .f32⟩
  | .local _ .vmem, ⟨2, _⟩ => ⟨S1x64x64, .f32⟩
  | .local _ .vmem, ⟨3, _⟩ => ⟨S1x64x64, .f32⟩
  | .local _ .vmem, ⟨4, _⟩ => ⟨S1x512x4096, .f32⟩
  | .local _ .vmem, ⟨5, _⟩ => ⟨S1x512x4096, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S8x64_S8x1x64x1 : S8x64.ShapeCasts S8x1x64x1
  shapeCasts_S64x64_S1x64x1x64 : S64x64.ShapeCasts S1x64x1x64
  broadcasts_S8x1x64x1_S8x64x64x64 : S8x1x64x1.Broadcasts S8x64x64x64
  broadcasts_S1x64x1x64_S8x64x64x64 : S1x64x1x64.Broadcasts S8x64x64x64
  shapeCasts_S8x64x64x64_S512x4096 : S8x64x64x64.ShapeCasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64.size a ≤ S8x64x64.size a
  hwx0_0 : ∀ i : grid0.Coords, EltTy.bits .f32 = 32 ∨ (Rect.block (s := S8x64x64) S1x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x4096x4096.size a
  hwx0_2 : ∀ i : grid0.Coords, EltTy.bits .f32 = 32 ∨ (Rect.block (s := S8x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x64 : Shape := ⟨3, ![8, 64, 64]⟩
abbrev S8x64x1x64x1 : Shape := ⟨5, ![8, 64, 1, 64, 1]⟩
abbrev S8x1x64x1x64 : Shape := ⟨5, ![8, 1, 64, 1, 64]⟩
abbrev S8x64x64x64x64 : Shape := ⟨5, ![8, 64, 64, 64, 64]⟩
abbrev S8x4096x4096 : Shape := ⟨3, ![8, 4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x64x1x64x1, .f32⟩
  | .hbm, ⟨3, _⟩ => ⟨S8x1x64x1x64, .f32⟩
  | .hbm, ⟨4, _⟩ => ⟨S8x64x64x64x64, .f32⟩
  | .hbm, ⟨5, _⟩ => ⟨S8x64x64x64x64, .f32⟩
  | .hbm, ⟨6, _⟩ => ⟨S8x64x64x64x64, .f32⟩
  | .hbm, ⟨7, _⟩ => ⟨S8x4096x4096, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8x64x64_S8x64x1x64x1_0_1_3 : S8x64x64.BroadcastsInDim S8x64x1x64x1 (![0, 1, 3] : Fin 3 → Fin S8x64x1x64x1.rank)
  bcast_S8x64x64_S8x1x64x1x64_0_2_4 : S8x64x64.BroadcastsInDim S8x1x64x1x64 (![0, 2, 4] : Fin 3 → Fin S8x1x64x1x64.rank)
  bcast_S8x64x1x64x1_S8x64x64x64x64_0_1_2_3_4 : S8x64x1x64x1.BroadcastsInDim S8x64x64x64x64 (![0, 1, 2, 3, 4] : Fin 5 → Fin S8x64x64x64x64.rank)
  bcast_S8x1x64x1x64_S8x64x64x64x64_0_1_2_3_4 : S8x1x64x1x64.BroadcastsInDim S8x64x64x64x64 (![0, 1, 2, 3, 4] : Fin 5 → Fin S8x64x64x64x64.rank)
  shapeCasts_S8x64x64x64x64_S8x4096x4096 : S8x64x64x64x64.ShapeCasts S8x4096x4096

variable [Facts₀]

class Facts : Prop extends Facts₀ where

variable [Facts]
-- ==== Proof.KronSpec.lean ====
/-
  The batched Kronecker product as ONE function of the two argument arrays.

  For two stacks A, B of eight 64 x 64 matrices the product is the stack of eight 4096 x 4096 matrices
      K[b, r, s] = A[b, r / 64, s / 64] * B[b, r % 64, s % 64] :
  row r = i * 64 + p and column s = j * 64 + q pair the entry (i, j) of A[b] with the entry (p, q) of B[b].
  Each entry is a single product with A's entry on the left, so no law of the extended reals' arithmetic
  (and no finiteness of the inputs) is used anywhere: the two programs differ only in how they lay the
  same products out, and the whole proof is arithmetic on indices.
-/
import Idealize.ShloMosaic.PureOps.Ideal
import Idealize.ShloMosaic.Lib.ValueIdx

noncomputable section

namespace Cert.Kron

open Idealize.ShloMosaic Idealize.ShloMosaic.ValueIdx

/-- The shape of each argument: eight 64 x 64 matrices. -/
abbrev SIn : Shape := ⟨3, ![8, 64, 64]⟩
/-- The shape of the result: eight 4096 x 4096 matrices. -/
abbrev SOut : Shape := ⟨3, ![8, 4096, 4096]⟩

/-- Which entry of A a row (or column) of the product belongs to: the quotient by 64. -/
def outer (r : Fin 4096) : Fin 64 := ⟨r.val / 64, by have := r.isLt; omega⟩
/-- Which entry of B a row (or column) of the product belongs to: the remainder modulo 64. -/
def inner (r : Fin 4096) : Fin 64 := ⟨r.val % 64, by omega⟩

theorem outer_val (r : Fin 4096) : (outer r).val = r.val / 64 := rfl
theorem inner_val (r : Fin 4096) : (inner r).val = r.val % 64 := rfl

/-- The Kronecker product, entry by entry. -/
def kron (A B : FVec Ideal SIn .f32) : FVec Ideal SOut .f32 := fun i =>
  A (ix3 (i 0 : Fin 8) (outer (i 1)) (outer (i 2))) * B (ix3 (i 0 : Fin 8) (inner (i 1)) (inner (i 2)))

theorem kron_apply (A B : FVec Ideal SIn .f32) (i : SOut.Idx) :
    kron A B i = A (ix3 (i 0 : Fin 8) (outer (i 1)) (outer (i 2))) * B (ix3 (i 0 : Fin 8) (inner (i 1)) (inner (i 2))) := rfl

/-- Two indices of an argument array with the same three coordinates are the same index. -/
theorem idx3_ext {n0 n1 n2 : Nat} (k k' : (⟨3, ![n0, n1, n2]⟩ : Shape).Idx)
    (h0 : (k 0).val = (k' 0).val) (h1 : (k 1).val = (k' 1).val) (h2 : (k 2).val = (k' 2).val) : k = k' := by
  funext a
  match a with
  | ⟨0, _⟩ => exact Fin.ext h0
  | ⟨1, _⟩ => exact Fin.ext h1
  | ⟨2, _⟩ => exact Fin.ext h2

/-- ONE ENTRY, FROM COORDINATES. A product of an entry of A and an entry of B is the Kronecker product's entry at
    (b, r, s) as soon as A's entry sits at (b, r / 64, s / 64) and B's at (b, r % 64, s % 64). Both programs reach the
    product through this: each only has to say where it read its two factors. -/
theorem entry_eq (A B : FVec Ideal SIn .f32) (x y : Ideal .f32) (kA kB : SIn.Idx) (i : SOut.Idx)
    (hx : x = A kA) (hy : y = B kB)
    (hA0 : (kA 0).val = (i 0).val) (hA1 : (kA 1).val = (i 1).val / 64) (hA2 : (kA 2).val = (i 2).val / 64)
    (hB0 : (kB 0).val = (i 0).val) (hB1 : (kB 1).val = (i 1).val % 64) (hB2 : (kB 2).val = (i 2).val % 64) :
    FloatOps.mulf x y = kron A B i := by
  rw [hx, hy, kron_apply,
    idx3_ext kA (ix3 (i 0 : Fin 8) (outer (i 1)) (outer (i 2))) hA0 hA1 hA2,
    idx3_ext kB (ix3 (i 0 : Fin 8) (inner (i 1)) (inner (i 2))) hB0 hB1 hB2]
  rfl

end Cert.Kron

end
-- ==== Proof.KronReference.lean ====
/-
  The reference's result is the Kronecker product.

  The reference lifts A to a rank-5 array that depends on axes (0, 1, 3) only and B to one that depends on axes
  (0, 2, 4) only, multiplies them entry by entry, and flattens [8, 64, 64, 64, 64] to [8, 4096, 4096] in row-major
  order. An output index (b, r, s) sits at row-major position N = (b * 4096 + r) * 4096 + s, and the rank-5 index at
  that position is (b, r / 64, r % 64, s / 64, s % 64). So A is read at (b, r / 64, s / 64) and B at (b, r % 64, s % 64):
  the entry of the Kronecker product, with A's factor on the left exactly as the specification has it.
-/
import proofs.«115136_j19499151524244_1_alg».proof.Proof.Gen.ReferenceIdeal.Read
import proofs.«115136_j19499151524244_1_alg».proof.Proof.KronSpec

noncomputable section

namespace Cert.ReferenceIdeal.KronValue

open Cert.ReferenceIdeal Cert.ReferenceIdeal.Gen Cert.ReferenceIdeal.Read Cert.Kron
open Idealize.ShloMosaic Idealize.ShloMosaic.TcCoe Idealize.ShloMosaic.ValueIdx

/-- Where the flattened product reads A: the batch, and the quotients of the row and the column by 64. -/
theorem read_A (i : S8x4096x4096.Idx) :
    idx_main_v0 (idx_main_v2 (idx_main_v5 i)) = ix3 (i 0 : Fin 8) (outer (i 1)) (outer (i 2)) := by
  have h0 : (i 0).val < 8 := (i 0).isLt
  have h1 : (i 1).val < 4096 := (i 1).isLt
  have h2 : (i 2).val < 4096 := (i 2).isLt
  refine idx3_ext _ _ ?_ ?_ ?_
  · show (((i 0).val * 4096 + (i 1).val) * 4096 + (i 2).val) / 16777216 = (i 0).val
    omega
  · show (((i 0).val * 4096 + (i 1).val) * 4096 + (i 2).val) / 262144 % 64 = (i 1).val / 64
    omega
  · show (((i 0).val * 4096 + (i 1).val) * 4096 + (i 2).val) / 64 % 64 = (i 2).val / 64
    omega

/-- Where the flattened product reads B: the batch, and the remainders of the row and the column modulo 64. -/
theorem read_B (i : S8x4096x4096.Idx) :
    idx_main_v1 (idx_main_v3 (idx_main_v5 i)) = ix3 (i 0 : Fin 8) (inner (i 1)) (inner (i 2)) := by
  have h0 : (i 0).val < 8 := (i 0).isLt
  have h1 : (i 1).val < 4096 := (i 1).isLt
  have h2 : (i 2).val < 4096 := (i 2).isLt
  refine idx3_ext _ _ ?_ ?_ ?_
  · show (((i 0).val * 4096 + (i 1).val) * 4096 + (i 2).val) / 16777216 = (i 0).val
    omega
  · show (((i 0).val * 4096 + (i 1).val) * 4096 + (i 2).val) / 4096 % 64 = (i 1).val % 64
    omega
  · show (((i 0).val * 4096 + (i 1).val) * 4096 + (i 2).val) % 64 = (i 2).val % 64
    omega

/-- The reference's last stage, as a function of the two arguments, is the Kronecker product. -/
theorem result_eq (A B : FVec Ideal SIn .f32) : val_main_v5 (F := Ideal) A B = kron A B := by
  funext i
  rw [val_main_v5_apply, val_main_v4_apply, val_main_v2_apply, val_main_v3_apply, val_main_v0_apply,
    val_main_v1_apply, read_A, read_B]
  rfl

end Cert.ReferenceIdeal.KronValue

end
-- ==== Proof.KronBlocks.lean ====
/-
  The kernel's result array is the Kronecker product.

  The grid is 8 x 8. At the point (b, g) the kernel fetches rows 8g .. 8g+7 of A[b] (a [1, 8, 64] block), all of B[b]
  (a [1, 64, 64] block), and writes back rows 512g .. 512g+511 of the result's matrix b (a [1, 512, 4096] block). Inside
  the block, entry (0, y, z) is A's block at (0, y / 64, z / 64) times B's block at (0, y % 64, z % 64): row y = a * 64 + p
  of the block pairs row a of the eight fetched rows of A with row p of B.
  In array coordinates the block entry is the result's (b, 512g + y, z), A's block entry is A[b, 8g + y / 64, z / 64] and
  B's is B[b, y % 64, z % 64]. Since (512g + y) / 64 = 8g + y / 64 and (512g + y) % 64 = y % 64, this is exactly the
  Kronecker product's entry at (b, 512g + y, z). The 64 blocks tile the result, so the whole array is the product.
-/
import proofs.«115136_j19499151524244_1_alg».proof.Proof.Gen.KernelIdeal.Value
import proofs.«115136_j19499151524244_1_alg».proof.Proof.KronSpec

noncomputable section

namespace Cert.KernelIdeal.KronValue

open Cert.KernelIdeal Cert.KernelIdeal.Gen Cert.Kron
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three zero offsets of a whole-buffer access, as the constant function. -/
theorem zero_offsets : (![0, 0, 0] : Fin 3 → Nat) = fun _ => 0 := funext fun a => by fin_cases a <;> rfl

/-- How the three windows move over the grid, decided point by point: A's block follows the output's block on the batch
    and the row-block axes and is the only block on the column axis; B's block follows the batch only; the output's block
    index is (b, g, 0) with b, g below 8. -/
theorem window_moves : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 7
    ∧ win0_2.index t (1 : Fin 3) ≤ 7
    ∧ win0_2.index t (2 : Fin 3) = 0 :=
  (by decide +kernel : ∀ t : Fin grid0.N, _)

/-- Every pair (batch, row block) is some grid point's output block. -/
theorem every_block : ∀ (b : Fin 8) (g : Fin 8), ∃ t : Fin cfg0.N, win0_2.index t = ![b.val, g.val, 0] :=
  (by decide +kernel : ∀ (b : Fin 8) (g : Fin 8), ∃ t : Fin grid0.N, win0_2.index t = ![b.val, g.val, 0])

/-- What the body leaves in the output's staging buffer, for any contents of the two input buffers: at (0, y, z) the
    first buffer's entry (0, y / 64, z / 64) times the second's (0, y % 64, z % 64). (The body loads both buffers whole,
    and its one store covers the output buffer.) -/
theorem block_entry (P0 : Vec Ideal S1x8x64 .f32) (P1 : Vec Ideal S1x64x64 .f32) :
    out0_2 P0 P1 = Value.E2 P0 P1 := by
  unfold out0_2
  funext y
  rw [Value.canon2_eq, View.ld_unit_zero (S := S1x8x64) zero_offsets, View.ld_unit_zero (S := S1x64x64) zero_offsets]

/-- WHAT A GRID POINT WRITES BACK is its block of the Kronecker product of the two argument arrays. -/
theorem flushed_eq (c : Dev nD) (t : Fin cfg0.N) :
    (dats m 0 c).flushed 2 t
      = ((cfg0.win 2).blk t).view.read (Elt Ideal) (kron (V m c main_arg0) (V m c main_arg1)) := by
  rw [Value.flushed2, block_entry (iblk m c 0 t) (iblk m c 1 t)]
  obtain ⟨a0, a1, a2, b0, b1, b2, o0, o1, o2⟩ := window_moves t
  funext j
  have hj0 : (j 0).val < 1 := (j 0).isLt
  have hj1 : (j 1).val < 512 := (j 1).isLt
  have hj2 : (j 2).val < 4096 := (j 2).isLt
  show FloatOps.mulf (F := Ideal) (φ := .f32)
      (iblk m c 0 t (Value.ix2_0 ((cfg0.win 2).xinj (grid0.coords t) j)))
      (iblk m c 1 t (Value.ix2_1 ((cfg0.win 2).xinj (grid0.coords t) j)))
    = kron (V m c main_arg0) (V m c main_arg1) (((cfg0.win 2).blk t).view.emb j)
  refine entry_eq (V m c main_arg0) (V m c main_arg1) _ _
    (((cfg0.win 0).blk t).view.emb (Value.ix2_0 ((cfg0.win 2).xinj (grid0.coords t) j)))
    (((cfg0.win 1).blk t).view.emb (Value.ix2_1 ((cfg0.win 2).xinj (grid0.coords t) j)))
    (((cfg0.win 2).blk t).view.emb j) rfl rfl ?_ ?_ ?_ ?_ ?_ ?_
  · show win0_0.index t (0 : Fin 3) * 1 + 1 * 0 = win0_2.index t (0 : Fin 3) * 1 + 1 * (j 0).val
    omega
  · show win0_0.index t (1 : Fin 3) * 8 + 1 * ((j 1).val / 64)
        = (win0_2.index t (1 : Fin 3) * 512 + 1 * (j 1).val) / 64
    omega
  · show win0_0.index t (2 : Fin 3) * 64 + 1 * ((j 2).val / 64)
        = (win0_2.index t (2 : Fin 3) * 4096 + 1 * (j 2).val) / 64
    omega
  · show win0_1.index t (0 : Fin 3) * 1 + 1 * 0 = win0_2.index t (0 : Fin 3) * 1 + 1 * (j 0).val
    omega
  · show win0_1.index t (1 : Fin 3) * 64 + 1 * ((j 1).val % 64)
        = (win0_2.index t (1 : Fin 3) * 512 + 1 * (j 1).val) % 64
    omega
  · show win0_1.index t (2 : Fin 3) * 64 + 1 * ((j 2).val % 64)
        = (win0_2.index t (2 : Fin 3) * 4096 + 1 * (j 2).val) % 64
    omega

/-- An index of the result is in a grid point's block iff each coordinate lies in the block's range on its axis. -/
theorem mem_block (t : Fin cfg0.N) (i : S8x4096x4096.Idx) :
    i ∈ ((cfg0.win 2).blk t).view.set
      ↔ ∀ a : Fin 3, win0_2.index t a * S1x512x4096.size a ≤ (i a).val
          ∧ (i a).val < win0_2.index t a * S1x512x4096.size a + S1x512x4096.size a := by
  show i ∈ ((View.whole main_v0).slice (win0_2.rect t)).set ↔ _
  rw [View.set_slice_whole, Rect.mem_set_unit]
  exact Iff.rfl

/-- The 64 blocks tile the result: the entry (b, r, s) lies in the block of the point (b, r / 512). -/
theorem covered (i : S8x4096x4096.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 4096 := (i 2).isLt
  obtain ⟨t, ht⟩ := every_block ⟨(i 0).val, h0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 4096 ≤ (i 2).val ∧ (i 2).val < win0_2.index t (2 : Fin 3) * 4096 + 4096
    omega

/-- THE RESULT ARRAY after the run is the Kronecker product of the argument arrays as launched. -/
theorem final (c : Dev nD) :
    (dats m 0 c).arrAt 2 cfg0.N
      = kron (m ((c : Thread nD τ).loc main_arg0)) (m ((c : Thread nD τ).loc main_arg1)) :=
  (dats m 0 c).arrAt_eq_of_cover 2 (kron (V m c main_arg0) (V m c main_arg1)) (fun t _ => flushed_eq m c t) covered

/-- The kernel's run: the result at the Kronecker product of the arguments, the arguments unchanged. -/
theorem run : θ_run defs (onTc (τ := τ) (main (F := Ideal))) ⟨m, fun _ => 0, ρ⟩ fun r => ∀ c : Dev nD,
      r.2.mem ((c : Thread nD τ).loc main_v0)
        = kron (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KronValue

end
-- ==== Proof.lean ====
/-
  The kernel and the reference both compute the batched Kronecker product
      K[b, r, s] = A[b, r / 64, s / 64] * B[b, r % 64, s % 64]
  of two stacks of eight 64 x 64 matrices, one multiplication per entry with A's factor on the left.

  The kernel tiles the result into 64 blocks of 512 rows and forms each block from eight rows of A[b] and all of B[b]
  (Proof/KronBlocks.lean); the reference lifts both arguments to rank 5, multiplies, and flattens
  (Proof/KronReference.lean). Both are shown equal to the one function `Cert.Kron.kron` (Proof/KronSpec.lean) of the
  argument arrays, so from memories that agree on the arguments the two results are equal entry by entry. No property of
  the extended reals' arithmetic is used, and so neither is the finiteness of the inputs.

  Each program terminates without a fault and leaves its arguments unchanged: for the two kernel programs that is the
  frame of the pipelined call; for the reference it is its run with the result forgotten. The idealized kernel is the
  kernel's own text read over the extended reals (no operation was rewritten), so that conjunct is trivial.
-/
import proofs.«115136_j19499151524244_1_alg».proof.Defs
import proofs.«115136_j19499151524244_1_alg».proof.Proof.Gen.Kernel
import proofs.«115136_j19499151524244_1_alg».proof.Proof.Gen.Kernel.Skeleton
import proofs.«115136_j19499151524244_1_alg».proof.Proof.Gen.Kernel.Launch
import proofs.«115136_j19499151524244_1_alg».proof.Proof.Gen.Kernel.Points
import proofs.«115136_j19499151524244_1_alg».proof.Proof.Gen.Kernel.Frame
import proofs.«115136_j19499151524244_1_alg».proof.Proof.Gen.KernelIdeal
import proofs.«115136_j19499151524244_1_alg».proof.Proof.Gen.KernelIdeal.Skeleton
import proofs.«115136_j19499151524244_1_alg».proof.Proof.Gen.KernelIdeal.Launch
import proofs.«115136_j19499151524244_1_alg».proof.Proof.Gen.KernelIdeal.Points
import proofs.«115136_j19499151524244_1_alg».proof.Proof.Gen.KernelIdeal.Frame
import proofs.«115136_j19499151524244_1_alg».proof.Proof.Gen.ReferenceIdeal
import proofs.«115136_j19499151524244_1_alg».proof.Proof.Gen.Pre_finite_inputs
import proofs.«115136_j19499151524244_1_alg».proof.Proof.Gen.KernelIdeal.Value
import proofs.«115136_j19499151524244_1_alg».proof.Proof.Gen.ReferenceIdeal.Run
import proofs.«115136_j19499151524244_1_alg».proof.Proof.Gen.ReferenceIdeal.Read
import proofs.«115136_j19499151524244_1_alg».proof.Proof.KronSpec
import proofs.«115136_j19499151524244_1_alg».proof.Proof.KronReference
import proofs.«115136_j19499151524244_1_alg».proof.Proof.KronBlocks
import Idealize.ShloMosaic.Adequacy
import Idealize.ShloMosaic.Init

noncomputable section

namespace Cert.Proof

open Idealize.ShloMosaic Idealize.SL.Sem

section
variable [Cert.Kernel.Facts] [Cert.KernelIdeal.Facts] [Cert.ReferenceIdeal.Facts] [Cert.Pre_finite_inputs.Facts]

/-- The kernel as printed runs to the end and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs to the end and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on A and B, the kernel's result and the reference's result are both the Kronecker product of
    A and B, hence equal. -/
theorem algebraic : Cert.algebraic_KernelIdeal_ReferenceIdeal := by
  intro m ρ m' ρ' _ hagree
  refine ⟨_, Cert.KernelIdeal.KronValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.KronValue.result_eq, (hagree c).1, (hagree c).2]

end

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
